-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) (main_arg1 : FVec F S4194304x16 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S4194304x16 .f32 := Host.absf main_arg1
  let main_cst_0 : FVec F S_ .f32 := constant S_ .f32 0x7F800000#32
  let main_v5 : FVec F S4194304x16 .f32 := broadcastInDim S4194304x16 ![] bcast_S_S4194304x16 main_cst_0
  let main_v6 : IVec S4194304x16 1 := cmpf .olt main_v4 main_v5
  let main_c_1 : IVec S_ 1 := constantI S_ 1 1#1
  let main_v7 : IVec S_ 1 := (fun x v => Host.reduce IntOp.andi x v reducesTo_S4194304x16_S_d0_1 h_S_) main_v6 main_c_1
  let main_v8 : IVec S_ 1 := andi main_v3 main_v7
  main_v8
-- ==== Kernel.lean ====
abbrev S4194304x16 : Shape := ⟨2, ![4194304, 16]⟩
abbrev S1x16 : Shape := ⟨2, ![1, 16]⟩
abbrev S16384x16 : Shape := ⟨2, ![16384, 16]⟩
abbrev S16 : Shape := ⟨1, ![16]⟩
abbrev S_ : Shape := ⟨0, ![]⟩

abbrev nBuf : Space → Nat
  | .hbm => 22
  | .vmem => 7
  | .smem => 0
  | _ => 0

abbrev bufTy : (tb : Table) → Fin (tcTables nBuf tb) → BufTy
  | .hbm, ⟨0, _⟩ => ⟨S4194304x16, .f32⟩
  | .hbm, ⟨1, _⟩ => ⟨S4194304x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .local _ .vmem, ⟨0, _⟩ => ⟨S16384x16, .f32⟩
  | .local _ .vmem, ⟨1, _⟩ => ⟨S16384x16, .f32⟩
  | .local _ .vmem, ⟨2, _⟩ => ⟨S16384x16, .f32⟩
  | .local _ .vmem, ⟨3, _⟩ => ⟨S16384x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x16_S1x16_0_0 : ∀ a, (![0, 0] : Fin 2 → Nat) a + S1x16.size a ≤ S1x16.size a
  h_S1x16 : 0 < S1x16.numel
  inb_S16384x16_S16384x16_0_0 : ∀ a, (![0, 0] : Fin 2 → Nat) a + S16384x16.size a ≤ S16384x16.size a
  h_S16384x16 : 0 < S16384x16.numel
  shapeCasts_S1x16_S1x16 : S1x16.ShapeCasts S1x16
  reduces_S16384x16_S16 : S16384x16.Reduces [0] S16
  shapeCasts_S16_S1x16 : S16.ShapeCasts S1x16
  shapeCasts_S1x16_S16 : S1x16.ShapeCasts S16
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S4194304x16.size a
  hwx0_0 : ∀ i : grid0.Coords, EltTy.bits .f32 = 32 ∨ (Rect.block (s := S4194304x16) S16384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x16.size a ≤ S4194304x16.size a
  hwx0_1 : ∀ i : grid0.Coords, EltTy.bits .f32 = 32 ∨ (Rect.block (s := S4194304x16) S16384x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)

variable [Facts₀]

abbrev win0_0 : Pipeline.Window sig grid0 :=
  Pipeline.Window.ofSpec (Memref.whole main_arg0) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S_ : Shape := ⟨0, ![]⟩
abbrev S16 : Shape := ⟨1, ![16]⟩

abbrev nBuf : Space → Nat
  | .hbm => 23
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304x16, .f32⟩
  | .hbm, ⟨2, _⟩ => ⟨S4194304x16, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  reducesTo_S4194304x16_S16_d0 : S4194304x16.ReducesTo [0] S16
  h_S_ : 0 < S_.numel
  bcast_S_S16 : S_.BroadcastsInDim S16 (![] : Fin 0 → Fin S16.rank)

variable [Facts₀]

class Facts : Prop extends Facts₀ where

variable [Facts]
-- ==== Proof.BlockStep.lean ====
/-
  What one grid point does to the three running rows, at any float instance.

  The body reads its two 16384 × 16 blocks `p` and `g`, sums each lane of `p · g`, of `g` and of `p` over the block's
  rows (`laneRow`: the lane sums laid out as a 1 × 16 row) and adds each to its running row. At every point but the
  first the running row is what the point before left (`step_w`: `acc + laneRow …`); at the first point the body
  stores the zero row first and reads it back, so the running row is the zero row (`first_w`: `0 + laneRow …`).
  Each output's staging buffer ends at the payload of its last store, which covers the whole 1 × 16 block; the loads
  read whole buffers.
-/
import proofs.«168357_j42863773614715_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem hz : (![0, 0] : Fin 2 → Nat) = fun _ => 0 := funext fun a => by fin_cases a <;> rfl

/-- The lane sums of one block over its rows, laid out as a 1 × 16 row. -/
def laneRow (x : FVec F S16384x16 .f32) : FVec F S1x16 .f32 :=
  shapeCast S1x16 (multiReduction .add [0] S16 x 0x00000000#32 reduces_S16384x16_S16 (.inl rfl) rfl) shapeCasts_S16_S1x16

/-- The zero row the first point stores. -/
abbrev zeroRow : FVec F S1x16 .f32 := broadcast S1x16 (Scalar.ofBits .f32 0x00000000#32)

/-- The three accumulating payloads: the running row plus the block's lane sums. -/
theorem pay_pg (v3 v4 : Vec F S16384x16 .f32) (v5 : Vec F S1x16 .f32) :
    k0_pay4 v3 v4 v5 = addf (F := F) (s := S1x16) (φ := .f32) v5 (laneRow (mulf (F := F) (s := S16384x16) (φ := .f32) v3 v4)) := by
  show addf (shapeCast S1x16 v5 shapeCasts_S1x16_S1x16) (laneRow (mulf v3 v4)) = _
  rw [shapeCast_self]
theorem pay_g (v4 : Vec F S16384x16 .f32) (v12 : Vec F S1x16 .f32) :
    k0_pay5 v4 v12 = addf (F := F) (s := S1x16) (φ := .f32) v12 (laneRow v4) := by
  show addf (shapeCast S1x16 v12 shapeCasts_S1x16_S1x16) (laneRow v4) = _
  rw [shapeCast_self]
theorem pay_p (v3 : Vec F S16384x16 .f32) (v18 : Vec F S1x16 .f32) :
    k0_pay6 v3 v18 = addf (F := F) (s := S1x16) (φ := .f32) v18 (laneRow v3) := by
  show addf (shapeCast S1x16 v18 shapeCasts_S1x16_S1x16) (laneRow v3) = _
  rw [shapeCast_self]

/-! ## A point after the first: the running rows grow by the block's lane sums -/

theorem step_2 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : ¬cond0_0 i) (x0 x1 : Vec F S16384x16 .f32) (xo2 xo3 xo4 : Vec F S1x16 .f32) :
    out0_B_2 c i a1 h1 a2 h2 a3 h3 a4 h4 a5 h5 hc x0 x1 xo2 xo3 xo4 = addf (F := F) (s := S1x16) (φ := .f32) xo2 (laneRow (mulf (F := F) (s := S16384x16) (φ := .f32) x0 x1)) := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, View.ld_unit_zero (S := S16384x16) hz,
    View.ld_unit_zero (S := S1x16) hz]
  exact pay_pg x0 x1 xo2

theorem step_3 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : ¬cond0_0 i) (x0 x1 : Vec F S16384x16 .f32) (xo2 xo3 xo4 : Vec F S1x16 .f32) :
    out0_B_3 c i a1 h1 a2 h2 a3 h3 a4 h4 a5 h5 hc x0 x1 xo2 xo3 xo4 = addf (F := F) (s := S1x16) (φ := .f32) xo3 (laneRow x1) := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h4.read_unread, View.ld_unit_zero (S := S16384x16) hz,
    View.ld_unit_zero (S := S1x16) hz]
  exact pay_g x1 xo3

theorem step_4 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : ¬cond0_0 i) (x0 x1 : Vec F S16384x16 .f32) (xo2 xo3 xo4 : Vec F S1x16 .f32) :
    out0_B_4 c i a1 h1 a2 h2 a3 h3 a4 h4 a5 h5 hc x0 x1 xo2 xo3 xo4 = addf (F := F) (s := S1x16) (φ := .f32) xo4 (laneRow x0) := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h5.read_unread, View.ld_unit_zero (S := S16384x16) hz,
    View.ld_unit_zero (S := S1x16) hz]
  exact pay_p x0 xo4

/-! ## The first point: the running rows start from the zero row -/

theorem first_2 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : cond0_0 i) (x0 x1 : Vec F S16384x16 .f32) :
    out0_A_2 c i a1 h1 a2 h2 a3 h3 a4 h4 a5 h5 hc x0 x1 = addf (F := F) (s := S1x16) (φ := .f32) zeroRow (laneRow (mulf (F := F) (s := S16384x16) (φ := .f32) x0 x1)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x16) hz, View.readCov_unit_zero (S := S1x16) _ hz]
  simp only [View.readAt_eq_ld, h1.read_unread, h2.read_unread, View.ld_unit_zero (S := S16384x16) hz]
  exact pay_pg x0 x1 (k0_pay1 (F := F))

theorem first_3 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : cond0_0 i) (x0 x1 : Vec F S16384x16 .f32) :
    out0_A_3 c i a1 h1 a2 h2 a3 h3 a4 h4 a5 h5 hc x0 x1 = addf (F := F) (s := S1x16) (φ := .f32) zeroRow (laneRow x1) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x16) hz, View.readCov_unit_zero (S := S1x16) _ hz]
  simp only [View.readAt_eq_ld, h1.read_unread, h2.read_unread, View.ld_unit_zero (S := S16384x16) hz]
  exact pay_g x1 (k0_pay2 (F := F))

theorem first_4 (c : Dev nD) (i : grid0.Coords) (a1 : Memref sig .tc .vmem S16384x16 .f32) (h1 : a1.IsWhole)
    (a2 : Memref sig .tc .vmem S16384x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (hc : cond0_0 i) (x0 x1 : Vec F S16384x16 .f32) :
    out0_A_4 c i a1 h1 a2 h2 a3 h3 a4 h4 a5 h5 hc x0 x1 = addf (F := F) (s := S1x16) (φ := .f32) zeroRow (laneRow x0) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x16) hz, View.readCov_unit_zero (S := S1x16) _ hz]
  simp only [View.readAt_eq_ld, h1.read_unread, h2.read_unread, View.ld_unit_zero (S := S16384x16) hz]
  exact pay_p x0 (k0_pay3 (F := F))

end Cert.KernelIdeal.Step

end
-- ==== Proof.ColumnSums.lean ====
/-
  The mathematics both programs compute, stated once over the literal shapes and over the extended reals.

  For an array `x` of 4194304 rows and 16 lanes, `colSum x` is the sum of each lane over all rows. The rows split
  into 256 consecutive blocks of 16384 rows (`blockRow s r` is row `16384 s + r`), and a sum over all rows is the
  sum over the blocks of the sums inside each block (`sum_rows_eq_sum_blocks`): only commutativity and associativity
  of `+` are used, so this holds in any additive commutative monoid, the extended reals with their infinities
  included, and no finiteness of the entries is needed. `prefixSum x q n` is lane `q` summed over blocks `0 … n`:
  it starts at block 0's sum, grows by one block's sum per step, and at `n = 255` is `colSum`.

  `smoothRatio a b` is `(a + ε) / (b + ε)` lane by lane, with `ε` the value of the word `0x358637BD` and the
  quotient the host's division; precision is `smoothRatio (Σ p·g) (Σ p)` and recall `smoothRatio (Σ p·g) (Σ g)`.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.ColumnSums

open Idealize.ShloMosaic Idealize.ShloMosaic.ValueIdx

/-- The argument arrays' shape: 4194304 rows of 16 lanes. -/
abbrev Rows : Shape := ⟨2, ![4194304, 16]⟩
/-- One value per lane. -/
abbrev Lanes : Shape := ⟨1, ![16]⟩
/-- The scalar shape. -/
abbrev Scalar0 : Shape := ⟨0, ![]⟩

/-! ## Rows in blocks -/

/-- Row `r` of block `s`: row `16384 s + r` of the array. -/
def blockRow (s : Fin 256) (r : Fin 16384) : Fin 4194304 :=
  ⟨s.val * 16384 + r.val, by have := s.isLt; have := r.isLt; omega⟩

/-- (block, row inside the block) ↔ row: quotient and remainder by 16384. -/
def rowEquiv : Fin 256 × Fin 16384 ≃ Fin 4194304 where
  toFun x := blockRow x.1 x.2
  invFun n := (⟨n.val / 16384, by have := n.isLt; omega⟩, ⟨n.val % 16384, by omega⟩)
  left_inv := by
    rintro ⟨s, r⟩
    have := r.isLt
    refine Prod.ext (Fin.ext ?_) (Fin.ext ?_)
    · show (s.val * 16384 + r.val) / 16384 = s.val
      omega
    · show (s.val * 16384 + r.val) % 16384 = r.val
      omega
  right_inv := by
    intro n
    refine Fin.ext ?_
    show n.val / 16384 * 16384 + n.val % 16384 = n.val
    omega

/-- A sum over all rows is the sum over the blocks of the sums inside each block. -/
theorem sum_rows_eq_sum_blocks {M : Type} [AddCommMonoid M] (f : Fin 4194304 → M) :
    ∑ n : Fin 4194304, f n = ∑ s : Fin 256, ∑ r : Fin 16384, f (blockRow s r) :=
  (Fintype.sum_equiv rowEquiv (fun x => f (blockRow x.1 x.2)) f (fun _ => rfl)).symm.trans
    (Fintype.sum_prod_type' (fun s r => f (blockRow s r)))

/-! ## Lane sums -/

/-- Each lane summed over all rows. -/
def colSum (x : Rows.Idx → EReal) : Lanes.Idx → EReal := fun j => ∑ n : Fin 4194304, x (ix2 n (j 0))

/-- Lane `q` summed over the rows of block `s`. -/
def blockSum (x : Rows.Idx → EReal) (q : Fin 16) (s : Fin 256) : EReal := ∑ r : Fin 16384, x (ix2 (blockRow s r) q)

/-- Lane `q` summed over the rows of blocks `0 … n`. -/
def prefixSum (x : Rows.Idx → EReal) (q : Fin 16) (n : ℕ) (h : n < 256) : EReal :=
  ∑ s : Fin (n + 1), blockSum x q ⟨s.val, by have := s.isLt; omega⟩

theorem prefixSum_zero (x : Rows.Idx → EReal) (q : Fin 16) (h : 0 < 256) : prefixSum x q 0 h = blockSum x q ⟨0, h⟩ := by
  unfold prefixSum
  rw [Fin.sum_univ_one]
  rfl

theorem prefixSum_succ (x : Rows.Idx → EReal) (q : Fin 16) (n : ℕ) (h : n + 1 < 256) :
    prefixSum x q (n + 1) h = prefixSum x q n (by omega) + blockSum x q ⟨n + 1, h⟩ := by
  unfold prefixSum
  rw [Fin.sum_univ_castSucc]
  rfl

/-- After the last block the prefix sum is the lane's sum over all rows. -/
theorem prefixSum_last (x : Rows.Idx → EReal) (q : Fin 16) (h : 255 < 256) : prefixSum x q 255 h = colSum x (ix1 q) := by
  unfold prefixSum colSum blockSum
  exact (sum_rows_eq_sum_blocks (fun n => x (ix2 n q))).symm

/-! ## The running row -/

/-- A 1 × 16 row: the shape the kernel keeps its running lane sums in. -/
abbrev Row16 : Shape := ⟨2, ![1, 16]⟩

/-- The running row after blocks `0 … n`: lane `q` holds `prefixSum x q n`. -/
def prefixRow (x : Rows.Idx → EReal) (n : ℕ) (h : n < 256) : Row16.Idx → EReal :=
  fun y => prefixSum x (y 1 : Fin 16) n h

/-- Read back as one value per lane, the running row after the last block is the lane sum over all rows. -/
theorem prefixRow_last (x : Rows.Idx → EReal) (h : 255 < 256) (z : Fin 1) (q : Fin 16) :
    prefixRow x 255 h (ix2 z q) = colSum x (ix1 q) :=
  prefixSum_last x q h

/-! ## The smoothed quotient -/

/-- `(a + ε) / (b + ε)` lane by lane: `ε` the value of the word `0x358637BD`, the quotient the host's division. -/
def smoothRatio (a b : Lanes.Idx → EReal) : Lanes.Idx → EReal :=
  Host.divf (F := Ideal) (s := Lanes) (φ := .f32)
    (addf (F := Ideal) (s := Lanes) (φ := .f32) a (fun _ => Ideal.ofBits .f32 0x358637BD#32))
    (addf (F := Ideal) (s := Lanes) (φ := .f32) b (fun _ => Ideal.ofBits .f32 0x358637BD#32))

/-- A scalar constant spread over the lanes is that constant's value in every lane. -/
theorem splat_lanes (w : BitVec 32) (h : Scalar0.BroadcastsInDim Lanes ![]) :
    broadcastInDim Lanes ![] h (constant (F := Ideal) Scalar0 .f32 w) = fun _ => Ideal.ofBits .f32 w :=
  funext fun j => broadcastInDim_apply _ h _ j ix0 (fun a => a.elim0)

/-- The printed tail of either program, over its three lane sums, is the smoothed quotient. -/
theorem tail_eq (h : Scalar0.BroadcastsInDim Lanes ![]) (a b : Lanes.Idx → EReal) :
    Host.divf (F := Ideal) (s := Lanes) (φ := .f32)
      (addf (F := Ideal) (s := Lanes) (φ := .f32) a (broadcastInDim Lanes ![] h (constant (F := Ideal) Scalar0 .f32 0x358637BD#32)))
      (addf (F := Ideal) (s := Lanes) (φ := .f32) b (broadcastInDim Lanes ![] h (constant (F := Ideal) Scalar0 .f32 0x358637BD#32)))
      = smoothRatio a b := by
  rw [splat_lanes]
  rfl

end Cert.ColumnSums

end
-- ==== Proof.RunningRows.lean ====
/-
  The running rows after each grid point, at the ideal instance.

  Point `t` stages rows `16384 t … 16384 t + 16383` of both arguments (`pBlk_apply`, `gBlk_apply`: the block's entry
  `(r, q)` is the array's entry `(16384 t + r, q)`). The lane sums of a block laid out as a row read, at lane `q`,
  the sum over the block's rows of that lane (`laneRow_apply`). So the first point leaves `0 + ` block 0's lane sums
  and each later point adds its block's lane sums to what the point before left: by induction on the point, after
  point `n` the three running rows are the lane sums of `p · g`, of `g` and of `p` over blocks `0 … n`
  (`rows_after`). Only `0 + a = a` and the definition of a sum over one more block are used.
-/
import proofs.«168357_j42863773614715_1_alg».proof.Proof.Gen.KernelIdeal.Frame
import proofs.«168357_j42863773614715_1_alg».proof.Proof.BlockStep
import proofs.«168357_j42863773614715_1_alg».proof.Proof.ColumnSums
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen Cert.KernelIdeal.Step Cert.ColumnSums

/-! ## One block's lane sums, read at a lane -/

/-- The lane sums of a block laid out as a row: at lane `q`, the sum of that lane over the block's 16384 rows. -/
theorem laneRow_apply (b : FVec Ideal S16384x16 .f32) (z : Fin 1) (q : Fin 16) :
    laneRow (F := Ideal) b (ix2 z q) = ∑ r : Fin 16384, b (ix2 r q) := by
  unfold laneRow
  refine (shapeCast_apply _ shapeCasts_S16_S1x16 (ix2 z q) (ix1 q) ?_).trans ?_
  · rw [Shape.rowMajor_val_one, Shape.rowMajor_val_two]
    have hz0 : z.val = 0 := by omega
    show q.val = z.val * 16 + q.val
    omega
  · refine (Ideal.multiReduction_add_single b 0x00000000#32 reduces_S16384x16_S16 (.inl rfl) rfl (ix1 q)).trans ?_
    exact Finset.sum_congr rfl fun r _ => congrArg b (funext fun a => Fin.ext (by match a with | ⟨0, _⟩ => rfl | ⟨1, _⟩ => rfl))

/-- The first point: the zero row plus block 0's lane sums is the running row after block 0. -/
theorem start_row (x : Rows.Idx → EReal) (b : FVec Ideal S16384x16 .f32) (h0 : 0 < 256)
    (hb : ∀ (r : Fin 16384) (q : Fin 16), b (ix2 r q) = x (ix2 (blockRow ⟨0, h0⟩ r) q)) :
    addf (F := Ideal) (s := S1x16) (φ := .f32) zeroRow (laneRow b) = prefixRow x 0 h0 := by
  funext y
  obtain ⟨z, q, rfl⟩ : ∃ (z : Fin 1) (q : Fin 16), y = ix2 z q := ⟨y 0, y 1, eq_ix2 y⟩
  show Ideal.ofBits .f32 0x00000000#32 + laneRow b (ix2 z q) = prefixSum x q 0 h0
  rw [Ideal.ofBits_zero_f32, zero_add, laneRow_apply, prefixSum_zero]
  exact Finset.sum_congr rfl fun r _ => hb r q

/-- A later point: the running row after block `n` plus block `n + 1`'s lane sums is the running row after block `n + 1`. -/
theorem grow_row (x : Rows.Idx → EReal) (b : FVec Ideal S16384x16 .f32) (acc : FVec Ideal S1x16 .f32) (n : ℕ) (h : n + 1 < 256)
    (hacc : acc = prefixRow x n (Nat.lt_of_succ_lt h))
    (hb : ∀ (r : Fin 16384) (q : Fin 16), b (ix2 r q) = x (ix2 (blockRow ⟨n + 1, h⟩ r) q)) :
    addf (F := Ideal) (s := S1x16) (φ := .f32) acc (laneRow b) = prefixRow x (n + 1) h := by
  subst hacc
  funext y
  obtain ⟨z, q, rfl⟩ : ∃ (z : Fin 1) (q : Fin 16), y = ix2 z q := ⟨y 0, y 1, eq_ix2 y⟩
  show prefixSum x q n _ + laneRow b (ix2 z q) = prefixSum x q (n + 1) h
  rw [laneRow_apply, prefixSum_succ]
  exact congrArg (_ + ·) (Finset.sum_congr rfl fun r _ => hb r q)

/-! ## The blocks a point stages -/

variable (m : (ℓ : Loc nD τ sig) → Buf (Elt Ideal) ℓ)

/-- The two argument arrays as the region finds them, and the blocks of them point `t` stages. -/
abbrev pArr (c : Dev nD) : FVec Ideal S4194304x16 .f32 := V m c main_arg0
abbrev gArr (c : Dev nD) : FVec Ideal S4194304x16 .f32 := V m c main_arg1
abbrev pBlk (c : Dev nD) (t : Fin cfg0.N) : FVec Ideal S16384x16 .f32 := iblk m c 0 t
abbrev gBlk (c : Dev nD) (t : Fin cfg0.N) : FVec Ideal S16384x16 .f32 := iblk m c 1 t

/-- Both input windows sit at block index `(t, 0)` at point `t`. -/
theorem index_p : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_g : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, q)` of `p`'s block at point `t` is `p`'s entry `(16384 t + r, q)`. -/
theorem pBlk_apply (c : Dev nD) (t : Fin cfg0.N) (ht : t.val < 256) (r : Fin 16384) (q : Fin 16) :
    pBlk m c t (ix2 r q) = pArr m c (ix2 (blockRow ⟨t.val, ht⟩ r) q) := by
  show iblk m c 0 t (ix2 r q) = _
  unfold iblk
  rw [View.read_apply]
  show V m c main_arg0 _ = V m c main_arg0 _
  refine congrArg (V m c main_arg0) (funext fun a => Fin.ext ?_)
  match a with
  | ⟨0, _⟩ =>
    show win0_0.index t 0 * 16384 + 1 * r.val = t.val * 16384 + r.val
    rw [(index_p t).1]; omega
  | ⟨1, _⟩ =>
    show win0_0.index t 1 * 16 + 1 * q.val = q.val
    rw [(index_p t).2]; omega

/-- Entry `(r, q)` of `g`'s block at point `t` is `g`'s entry `(16384 t + r, q)`. -/
theorem gBlk_apply (c : Dev nD) (t : Fin cfg0.N) (ht : t.val < 256) (r : Fin 16384) (q : Fin 16) :
    gBlk m c t (ix2 r q) = gArr m c (ix2 (blockRow ⟨t.val, ht⟩ r) q) := by
  show iblk m c 1 t (ix2 r q) = _
  unfold iblk
  rw [View.read_apply]
  show V m c main_arg1 _ = V m c main_arg1 _
  refine congrArg (V m c main_arg1) (funext fun a => Fin.ext ?_)
  match a with
  | ⟨0, _⟩ =>
    show win0_1.index t 0 * 16384 + 1 * r.val = t.val * 16384 + r.val
    rw [(index_g t).1]; omega
  | ⟨1, _⟩ =>
    show win0_1.index t 1 * 16 + 1 * q.val = q.val
    rw [(index_g t).2]; omega

/-- The lanewise product of the two blocks is the block of the lanewise product of the two arrays. -/
theorem pgBlk_apply (c : Dev nD) (t : Fin cfg0.N) (ht : t.val < 256) (r : Fin 16384) (q : Fin 16) :
    mulf (F := Ideal) (s := S16384x16) (φ := .f32) (pBlk m c t) (gBlk m c t) (ix2 r q)
      = mulf (F := Ideal) (s := S4194304x16) (φ := .f32) (pArr m c) (gArr m c) (ix2 (blockRow ⟨t.val, ht⟩ r) q) := by
  show pBlk m c t (ix2 r q) * gBlk m c t (ix2 r q) = pArr m c _ * gArr m c _
  rw [pBlk_apply m c t ht, gBlk_apply m c t ht]

/-! ## The running rows after each point -/

/-- After point `n` the three staging buffers hold the lane sums of `p · g`, of `g` and of `p` over blocks `0 … n`. -/
theorem rows_after (c : Dev nD) : ∀ (n : ℕ) (h : n < cfg0.N) (h' : n < 256),
    (outsAt0 m c n h).1 = prefixRow (mulf (F := Ideal) (s := S4194304x16) (φ := .f32) (pArr m c) (gArr m c)) n h'
    ∧ (outsAt0 m c n h).2.1 = prefixRow (gArr m c) n h'
    ∧ (outsAt0 m c n h).2.2 = prefixRow (pArr m c) n h'
  | 0, h, h' => by
    rw [outsAt0_A m c ⟨0, h⟩ (Nat.zero_mod _)]
    dsimp only
    refine ⟨?_, ?_, ?_⟩
    · rw [first_2]
      exact start_row _ _ h' (pgBlk_apply m c ⟨0, h⟩ h')
    · rw [first_3]
      exact start_row _ _ h' (gBlk_apply m c ⟨0, h⟩ h')
    · rw [first_4]
      exact start_row _ _ h' (pBlk_apply m c ⟨0, h⟩ h')
  | n + 1, h, h' => by
    have hB : ¬(⟨n + 1, h⟩ : Fin cfg0.N).val % 256 = 0 := by dsimp only; omega
    obtain ⟨ih2, ih3, ih4⟩ := rows_after c n (Nat.lt_of_succ_lt h) (Nat.lt_of_succ_lt h')
    rw [outsAt0_B m c ⟨n + 1, h⟩ hB]
    dsimp only
    refine ⟨?_, ?_, ?_⟩
    · rw [step_2]
      exact grow_row _ _ _ n h' ih2 (pgBlk_apply m c ⟨n + 1, h⟩ h')
    · rw [step_3]
      exact grow_row _ _ _ n h' ih3 (gBlk_apply m c ⟨n + 1, h⟩ h')
    · rw [step_4]
      exact grow_row _ _ _ n h' ih4 (pBlk_apply m c ⟨n + 1, h⟩ h')

end Cert.KernelIdeal.Running

end
-- ==== Proof.FinalRows.lean ====
/-
  What the three output arrays hold after the run, at any float instance.

  Each output window keeps block index (0, 0) at every point, so its staging buffer is carried from point to point and
  written back once, after the last point (point 255); that block is the whole 1 × 16 array. So each output array
  ends holding what the body left in its staging buffer at the last point. The statements are for any row `R` equal
  to what the last point left.
-/
import proofs.«168357_j42863773614715_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]
variable (m : (ℓ : Loc nD τ sig) → Buf (Elt F) ℓ)

theorem lastLt : 255 < cfg0.N := by rw [show cfg0.N = 256 from N_0]; decide

/-- The last grid point. -/
abbrev lastPt : Fin cfg0.N := ⟨255, lastLt⟩

/-- Output window 2's one write-back, at the last point, writes the row the last point left: its block is the whole
    1 × 16 array. -/
theorem flushed_2 (c : Dev nD) (R : Vec F S1x16 .f32) (hR : (outsAt0 m c lastPt.val lastPt.isLt).1 = R)
    (t : Fin cfg0.N) (hf : (cfg0.win 2).flush t = true) :
    (dats m 0 c).flushed 2 t = ((cfg0.win 2).blk t).view.read (Elt F) R := by
  have hN : cfg0.N = 256 := N_0
  have h255 : t.val = 255 := by have := (flush0_2 t).mp hf; have := t.isLt; omega
  obtain rfl : t = lastPt := Fin.ext h255
  show (cfg0.win 2).cut (grid0.coords lastPt) ((dats m 0 c).after 2 lastPt) = _
  rw [after0_2, hR]
  have hz' : (fun a => win0_2.index lastPt a * main_v0_0.ty.shape.size a) = fun _ => 0 :=
    funext fun a => by fin_cases a <;> decide +kernel
  exact (Memref.read_access_unit_zero (Elt F) main_v0_0 hz' (fun a => by rw [congrFun hz' a]; simp) R).symm

/-- So the array of output window 2 ends holding that row. -/
theorem final_2 (c : Dev nD) (R : Vec F S1x16 .f32) (hR : (outsAt0 m c lastPt.val lastPt.isLt).1 = R) :
    (dats m 0 c).arrAt 2 cfg0.N = R :=
  (dats m 0 c).arrAt_eq_of_cover 2 R (flushed_2 m c R hR) fun i =>
    ⟨lastPt, (flush0_2 lastPt).mpr rfl, by
      show i ∈ ((View.whole main_v0_0).slice (win0_2.rect lastPt)).set
      rw [View.set_slice_whole, Rect.mem_set_unit]
      intro a
      have h0 : (i 0 : Nat) < 1 := (i 0).isLt
      have h1 : (i 1 : Nat) < 16 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 16 from by decide +kernel]
        omega⟩

/-- Output window 3's one write-back, at the last point, writes the row the last point left: its block is the whole
    1 × 16 array. -/
theorem flushed_3 (c : Dev nD) (R : Vec F S1x16 .f32) (hR : (outsAt0 m c lastPt.val lastPt.isLt).2.1 = R)
    (t : Fin cfg0.N) (hf : (cfg0.win 3).flush t = true) :
    (dats m 0 c).flushed 3 t = ((cfg0.win 3).blk t).view.read (Elt F) R := by
  have hN : cfg0.N = 256 := N_0
  have h255 : t.val = 255 := by have := (flush0_3 t).mp hf; have := t.isLt; omega
  obtain rfl : t = lastPt := Fin.ext h255
  show (cfg0.win 3).cut (grid0.coords lastPt) ((dats m 0 c).after 3 lastPt) = _
  rw [after0_3, hR]
  have hz' : (fun a => win0_3.index lastPt a * main_v0_1.ty.shape.size a) = fun _ => 0 :=
    funext fun a => by fin_cases a <;> decide +kernel
  exact (Memref.read_access_unit_zero (Elt F) main_v0_1 hz' (fun a => by rw [congrFun hz' a]; simp) R).symm

/-- So the array of output window 3 ends holding that row. -/
theorem final_3 (c : Dev nD) (R : Vec F S1x16 .f32) (hR : (outsAt0 m c lastPt.val lastPt.isLt).2.1 = R) :
    (dats m 0 c).arrAt 3 cfg0.N = R :=
  (dats m 0 c).arrAt_eq_of_cover 3 R (flushed_3 m c R hR) fun i =>
    ⟨lastPt, (flush0_3 lastPt).mpr rfl, by
      show i ∈ ((View.whole main_v0_1).slice (win0_3.rect lastPt)).set
      rw [View.set_slice_whole, Rect.mem_set_unit]
      intro a
      have h0 : (i 0 : Nat) < 1 := (i 0).isLt
      have h1 : (i 1 : Nat) < 16 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 16 from by decide +kernel]
        omega⟩

/-- Output window 4's one write-back, at the last point, writes the row the last point left: its block is the whole
    1 × 16 array. -/
theorem flushed_4 (c : Dev nD) (R : Vec F S1x16 .f32) (hR : (outsAt0 m c lastPt.val lastPt.isLt).2.2 = R)
    (t : Fin cfg0.N) (hf : (cfg0.win 4).flush t = true) :
    (dats m 0 c).flushed 4 t = ((cfg0.win 4).blk t).view.read (Elt F) R := by
  have hN : cfg0.N = 256 := N_0
  have h255 : t.val = 255 := by have := (flush0_4 t).mp hf; have := t.isLt; omega
  obtain rfl : t = lastPt := Fin.ext h255
  show (cfg0.win 4).cut (grid0.coords lastPt) ((dats m 0 c).after 4 lastPt) = _
  rw [after0_4, hR]
  have hz' : (fun a => win0_4.index lastPt a * main_v0_2.ty.shape.size a) = fun _ => 0 :=
    funext fun a => by fin_cases a <;> decide +kernel
  exact (Memref.read_access_unit_zero (Elt F) main_v0_2 hz' (fun a => by rw [congrFun hz' a]; simp) R).symm

/-- So the array of output window 4 ends holding that row. -/
theorem final_4 (c : Dev nD) (R : Vec F S1x16 .f32) (hR : (outsAt0 m c lastPt.val lastPt.isLt).2.2 = R) :
    (dats m 0 c).arrAt 4 cfg0.N = R :=
  (dats m 0 c).arrAt_eq_of_cover 4 R (flushed_4 m c R hR) fun i =>
    ⟨lastPt, (flush0_4 lastPt).mpr rfl, by
      show i ∈ ((View.whole main_v0_2).slice (win0_4.rect lastPt)).set
      rw [View.set_slice_whole, Rect.mem_set_unit]
      intro a
      have h0 : (i 0 : Nat) < 1 := (i 0).isLt
      have h1 : (i 1 : Nat) < 16 := (i 1).isLt
      match a with
      | ⟨0, _⟩ =>
        show win0_4.index lastPt 0 * win0_4.size 0 ≤ (i 0 : Nat)
          ∧ (i 0 : Nat) < win0_4.index lastPt 0 * win0_4.size 0 + win0_4.xsize (grid0.coords lastPt) 0
        rw [show win0_4.index lastPt 0 * win0_4.size 0 = 0 from by decide +kernel,
          show win0_4.xsize (grid0.coords lastPt) 0 = 1 from by decide +kernel]
        omega
      | ⟨1, _⟩ =>
        show win0_4.index lastPt 1 * win0_4.size 1 ≤ (i 1 : Nat)
          ∧ (i 1 : Nat) < win0_4.index lastPt 1 * win0_4.size 1 + win0_4.xsize (grid0.coords lastPt) 1
        rw [show win0_4.index lastPt 1 * win0_4.size 1 = 0 from by decide +kernel,
          show win0_4.xsize (grid0.coords lastPt) 1 = 16 from by decide +kernel]
        omega⟩

end Cert.KernelIdeal.Final

end
-- ==== Proof.KernelResults.lean ====
/-
  The kernel program's five results, at the ideal instance, as the specification's functions of its two arguments.

  After the region the three output arrays hold the running rows after the last point (the frame run, with each
  array's final contents read as the row the last point left), which are the lane sums over blocks `0 … 255`, that is
  over all 4194304 rows. The host operations after the region reshape each 1 × 16 row to 16 lanes (entry `(0, q)`
  read at lane `q`) — the three sums `Σ p·g`, `Σ g`, `Σ p` — and form the two smoothed quotients
  `(Σ p·g + ε) / (Σ p + ε)` and `(Σ p·g + ε) / (Σ g + ε)`. The arguments are left as they were.
-/
import proofs.«168357_j42863773614715_1_alg».proof.Proof.Gen.KernelIdeal.Frame
import proofs.«168357_j42863773614715_1_alg».proof.Proof.RunningRows
import proofs.«168357_j42863773614715_1_alg».proof.Proof.FinalRows
import proofs.«168357_j42863773614715_1_alg».proof.Proof.ColumnSums
import Idealize.ShloMosaic.Lib.Pipeline.Value
import Idealize.ShloMosaic.Lib.StableHlo.Run
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen Cert.KernelIdeal.Running Cert.KernelIdeal.Final Cert.ColumnSums

/-- A running row after the last block, reshaped to one value per lane, is the lane sum over all rows. -/
theorem lanes_of_row (x : Rows.Idx → EReal) (row : FVec Ideal S1x16 .f32) (hrow : row = prefixRow x 255 (by decide)) :
    shapeCast S16 row shapeCasts_S1x16_S16 = colSum x := by
  subst hrow
  funext j
  obtain ⟨q, rfl⟩ : ∃ q : Fin 16, j = ix1 q := ⟨j 0, eq_ix1 j⟩
  refine (shapeCast_apply _ shapeCasts_S1x16_S16 (ix1 q) (ix2 (0 : Fin 1) q) ?_).trans (prefixRow_last x _ 0 q)
  rw [Shape.rowMajor_val_two, Shape.rowMajor_val_one]
  show (0 : ℕ) * 16 + q.val = q.val
  omega

/-- The printed quotient of two lane vectors that are known lane sums is the smoothed quotient of those sums. -/
theorem quot_of_lanes (a b : FVec Ideal S16 .f32) (a' b' : Lanes.Idx → EReal) (ha : a = a') (hb : b = b') :
    Host.divf (F := Ideal) (s := S16) (φ := .f32)
      (addf (F := Ideal) (s := S16) (φ := .f32) a (broadcastInDim S16 ![] bcast_S_S16 (constant (F := Ideal) S_ .f32 0x358637BD#32)))
      (addf (F := Ideal) (s := S16) (φ := .f32) b (broadcastInDim S16 ![] bcast_S_S16 (constant (F := Ideal) S_ .f32 0x358637BD#32)))
      = smoothRatio a' b' := by
  subst ha hb
  exact tail_eq bcast_S_S16 _ _

variable (m : (ℓ : Loc nD τ sig) → Buf (Elt Ideal) ℓ) (ρ : Dev nD → PrngReg)

/-- The lanewise product of the two argument arrays. -/
abbrev pgArr (c : Dev nD) : FVec Ideal S4194304x16 .f32 :=
  mulf (F := Ideal) (s := S4194304x16) (φ := .f32) (pArr m c) (gArr m c)

/-- The core's buffers when the region is left: the windows' arrays at their final contents. -/
abbrev exitVal (c : Dev nD) : Valuation τ sig (Elt Ideal) :=
  Pipeline.withArrays (cfgs 0).spec c (V0 m c) (fun w => (dats m 0 c).arrAt w (cfgs 0).N)

/-- The running rows after the last point: the lane sums over all 256 blocks. -/
theorem last_rows (c : Dev nD) :
    (outsAt0 m c lastPt.val lastPt.isLt).1 = prefixRow (pgArr m c) lastPt.val (by decide)
    ∧ (outsAt0 m c lastPt.val lastPt.isLt).2.1 = prefixRow (gArr m c) lastPt.val (by decide)
    ∧ (outsAt0 m c lastPt.val lastPt.isLt).2.2 = prefixRow (pArr m c) lastPt.val (by decide) :=
  rows_after m c lastPt.val lastPt.isLt (by decide)

/-- The three output arrays when the region is left: the lane sums over all 256 blocks, as rows. -/
theorem exit_pg (c : Dev nD) : exitVal m c (Proc.devRef .tc main_v0_0) = prefixRow (pgArr m c) 255 (by decide) := by
  have e1 := Pipeline.withArrays_arr spec0 launch0.win.arr_inj c (V0 m c) (fun w => (dats m 0 c).arrAt w (cfgs 0).N) 2
  have e2 := final_2 m c _ (last_rows m c).1
  exact e1.trans e2
theorem exit_g (c : Dev nD) : exitVal m c (Proc.devRef .tc main_v0_1) = prefixRow (gArr m c) 255 (by decide) := by
  have e1 := Pipeline.withArrays_arr spec0 launch0.win.arr_inj c (V0 m c) (fun w => (dats m 0 c).arrAt w (cfgs 0).N) 3
  have e2 := final_3 m c _ (last_rows m c).2.1
  exact e1.trans e2
theorem exit_p (c : Dev nD) : exitVal m c (Proc.devRef .tc main_v0_2) = prefixRow (pArr m c) 255 (by decide) := by
  have e1 := Pipeline.withArrays_arr spec0 launch0.win.arr_inj c (V0 m c) (fun w => (dats m 0 c).arrAt w (cfgs 0).N) 4
  have e2 := final_4 m c _ (last_rows m c).2.2
  exact e1.trans e2

/-! ## The host operations after the region -/

theorem res_inter (c : Dev nD) :
    Pipeline.afterTail₀ cfgs (dats m) 0 (V0 m) [hostOps1] c main_v1 = colSum (pgArr m c) := by
  unfold Pipeline.afterTail₀
  show StableHlo.after hostOps1 _ (Proc.devRef .tc main_v1) = _
  after_results
  exact lanes_of_row _ _ (exit_pg m c)

theorem res_gsum (c : Dev nD) :
    Pipeline.afterTail₀ cfgs (dats m) 0 (V0 m) [hostOps1] c main_v2 = colSum (gArr m c) := by
  unfold Pipeline.afterTail₀
  show StableHlo.after hostOps1 _ (Proc.devRef .tc main_v2) = _
  after_results
  exact lanes_of_row _ _ (exit_g m c)

theorem res_psum (c : Dev nD) :
    Pipeline.afterTail₀ cfgs (dats m) 0 (V0 m) [hostOps1] c main_v3 = colSum (pArr m c) := by
  unfold Pipeline.afterTail₀
  show StableHlo.after hostOps1 _ (Proc.devRef .tc main_v3) = _
  after_results
  exact lanes_of_row _ _ (exit_p m c)

theorem res_precision (c : Dev nD) :
    Pipeline.afterTail₀ cfgs (dats m) 0 (V0 m) [hostOps1] c main_v8
      = smoothRatio (colSum (pgArr m c)) (colSum (pArr m c)) := by
  unfold Pipeline.afterTail₀
  show StableHlo.after hostOps1 _ (Proc.devRef .tc main_v8) = _
  after_results
  exact quot_of_lanes _ _ _ _ (lanes_of_row _ _ (exit_pg m c)) (lanes_of_row _ _ (exit_p m c))

theorem res_recall (c : Dev nD) :
    Pipeline.afterTail₀ cfgs (dats m) 0 (V0 m) [hostOps1] c main_v13
      = smoothRatio (colSum (pgArr m c)) (colSum (gArr m c)) := by
  unfold Pipeline.afterTail₀
  show StableHlo.after hostOps1 _ (Proc.devRef .tc main_v13) = _
  after_results
  exact quot_of_lanes _ _ _ _ (lanes_of_row _ _ (exit_pg m c)) (lanes_of_row _ _ (exit_g m c))

/-! ## The run, read -/

theorem mem_v1 : main_v1 ∈ Pipeline.restRefs sig cfg0.spec := Pipeline.mem_restRefs_of main_v1 rfl (by decide)
theorem mem_v2 : main_v2 ∈ Pipeline.restRefs sig cfg0.spec := Pipeline.mem_restRefs_of main_v2 rfl (by decide)
theorem mem_v3 : main_v3 ∈ Pipeline.restRefs sig cfg0.spec := Pipeline.mem_restRefs_of main_v3 rfl (by decide)
theorem mem_v8 : main_v8 ∈ Pipeline.restRefs sig cfg0.spec := Pipeline.mem_restRefs_of main_v8 rfl (by decide)
theorem mem_v13 : main_v13 ∈ Pipeline.restRefs sig cfg0.spec := Pipeline.mem_restRefs_of main_v13 rfl (by decide)

/-- Every weakly fair execution of the idealized kernel program terminates with its five results at the smoothed
    quotients and lane sums of the arguments' launch contents, the arguments unchanged. -/
theorem run : θ_run defs (onTc (τ := τ) (main (F := Ideal))) ⟨m, fun _ => 0, ρ⟩ (fun r => ∀ c : Dev nD,
      r.2.mem ((c.tc : Thread nD τ).loc main_v8) = smoothRatio (colSum (pgArr m c)) (colSum (pArr m c))
      ∧ r.2.mem ((c.tc : Thread nD τ).loc main_v13) = smoothRatio (colSum (pgArr m c)) (colSum (gArr m c))
      ∧ r.2.mem ((c.tc : Thread nD τ).loc main_v1) = colSum (pgArr m c)
      ∧ r.2.mem ((c.tc : Thread nD τ).loc main_v2) = colSum (gArr m c)
      ∧ r.2.mem ((c.tc : Thread nD τ).loc main_v3) = colSum (pArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 mem_v8).trans (res_precision m c),
      ((h c).2 main_v13 mem_v13).trans (res_recall m c),
      ((h c).2 main_v1 mem_v1).trans (res_inter m c),
      ((h c).2 main_v2 mem_v2).trans (res_gsum m c),
      ((h c).2 main_v3 mem_v3).trans (res_psum m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Results

end
-- ==== Proof.RefColumns.lean ====
/-
  What the reference computes, as the specification's functions of its two argument arrays.

  Each of its three `reduce` operations sums one array over the row axis starting from the zero word, whose value is
  the extended real `0`: the result is the lane sum `colSum` of that array (of the lanewise product `p · g` for the
  first). Its two quotients are then the specification's smoothed quotients of those lane sums.
-/
import proofs.«168357_j42863773614715_1_alg».proof.Proof.Gen.ReferenceIdeal.Read
import proofs.«168357_j42863773614715_1_alg».proof.Proof.ColumnSums

noncomputable section

open scoped BigOperators

namespace Cert.ReferenceIdeal.Columns

open Cert.ReferenceIdeal Cert.ReferenceIdeal.Gen Cert.ReferenceIdeal.Read Cert.ColumnSums
open Idealize.ShloMosaic Idealize.ShloMosaic.ValueIdx

/-- The index the host's reduce reads at row `k` for lane index `i` is `(k, i 0)`. -/
theorem row_index (i : S16.Idx) (k : Fin 4194304) : idx_main_v1 i k = ix2 k (i 0) :=
  funext fun a => by match a with | ⟨0, _⟩ => rfl | ⟨1, _⟩ => rfl

/-- Σ over rows of `g`, from a zero start, is `g`'s lane sum. -/
theorem sum_g (x1 : (⟨S4194304x16, .f32⟩ : BufTy).Contents (Elt Ideal)) : val_main_v2 (F := Ideal) x1 = colSum x1 := by
  funext i
  rw [val_main_v2_apply, val_main_cst_0_apply]
  show Ideal.ofBits .f32 0x00000000#32 + _ = _
  rw [Ideal.ofBits_zero_f32, zero_add]
  exact Finset.sum_congr rfl fun k _ => congrArg x1 (row_index i k)

/-- Σ over rows of `p`, from a zero start, is `p`'s lane sum. -/
theorem sum_p (x0 : (⟨S4194304x16, .f32⟩ : BufTy).Contents (Elt Ideal)) : val_main_v3 (F := Ideal) x0 = colSum x0 := by
  funext i
  rw [val_main_v3_apply, val_main_cst_1_apply]
  show Ideal.ofBits .f32 0x00000000#32 + _ = _
  rw [Ideal.ofBits_zero_f32, zero_add]
  exact Finset.sum_congr rfl fun k _ => congrArg x0 (row_index i k)

/-- Σ over rows of the lanewise product, from a zero start, is the product's lane sum. -/
theorem sum_pg (x0 x1 : (⟨S4194304x16, .f32⟩ : BufTy).Contents (Elt Ideal)) :
    val_main_v1 (F := Ideal) x0 x1 = colSum (mulf (F := Ideal) (s := S4194304x16) (φ := .f32) x0 x1) := by
  funext i
  rw [val_main_v1_apply, val_main_cst_apply]
  show Ideal.ofBits .f32 0x00000000#32 + _ = _
  rw [Ideal.ofBits_zero_f32, zero_add]
  exact Finset.sum_congr rfl fun k _ => congrArg (mulf (F := Ideal) (s := S4194304x16) (φ := .f32) x0 x1) (row_index i k)

/-- The reference's second quotient (its first result): precision, `(Σ p·g + ε) / (Σ p + ε)`. -/
theorem precision_eq (x0 x1 : (⟨S4194304x16, .f32⟩ : BufTy).Contents (Elt Ideal)) :
    val_main_v13 (F := Ideal) x0 x1
      = smoothRatio (colSum (mulf (F := Ideal) (s := S4194304x16) (φ := .f32) x0 x1)) (colSum x0) := by
  unfold val_main_v13 val_main_v10 val_main_v12 val_main_v9 val_main_v11 val_main_cst_4 val_main_cst_5
  rw [sum_pg, sum_p]
  exact tail_eq bcast_S_S16 _ _

/-- The reference's first quotient (its second result): recall, `(Σ p·g + ε) / (Σ g + ε)`. -/
theorem recall_eq (x0 x1 : (⟨S4194304x16, .f32⟩ : BufTy).Contents (Elt Ideal)) :
    val_main_v8 (F := Ideal) x0 x1
      = smoothRatio (colSum (mulf (F := Ideal) (s := S4194304x16) (φ := .f32) x0 x1)) (colSum x1) := by
  unfold val_main_v8 val_main_v5 val_main_v7 val_main_v4 val_main_v6 val_main_cst_2 val_main_cst_3
  rw [sum_pg, sum_g]
  exact tail_eq bcast_S_S16 _ _

end Cert.ReferenceIdeal.Columns

end
-- ==== Proof.lean ====
/-
  Precision and recall per class from two indicator arrays `p`, `g` of 4194304 rows and 16 lanes.

  Both programs compute, lane by lane, `I = Σ p·g`, `S_g = Σ g`, `S_p = Σ p` over all rows, and return
  `(I + ε) / (S_p + ε)`, `(I + ε) / (S_g + ε)`, `I`, `S_g`, `S_p` with `ε` the value of the word `0x358637BD`.
  The reference takes each sum in one reduction over the row axis from a zero start. The kernel walks the rows in 256
  blocks of 16384: at the first block it zeroes three 1 × 16 running rows, at every block it adds the block's lane
  sums to them, and after the last block the three rows are written out, reshaped to 16 lanes, and the two quotients
  are formed by the same host operations as the reference's.

  Over the extended reals the two agree because a sum over all rows is the sum over the blocks of the sums inside
  each block: only commutativity and associativity of `+`, and `0 + a = a`, are used, so the precondition that the
  inputs are finite is never opened. The ideal pass rewrote nothing, so the kernel's idealization is its own text.

  The three frames are the generated ones (the reference's is its generated run with the results dropped).
-/
import proofs.«168357_j42863773614715_1_alg».proof.Defs
import proofs.«168357_j42863773614715_1_alg».proof.Proof.Gen.Kernel
import proofs.«168357_j42863773614715_1_alg».proof.Proof.Gen.Kernel.Skeleton
import proofs.«168357_j42863773614715_1_alg».proof.Proof.Gen.Kernel.Launch
import proofs.«168357_j42863773614715_1_alg».proof.Proof.Gen.Kernel.Points
import proofs.«168357_j42863773614715_1_alg».proof.Proof.Gen.Kernel.Frame
import proofs.«168357_j42863773614715_1_alg».proof.Proof.Gen.KernelIdeal
import proofs.«168357_j42863773614715_1_alg».proof.Proof.Gen.KernelIdeal.Skeleton
import proofs.«168357_j42863773614715_1_alg».proof.Proof.Gen.KernelIdeal.Launch
import proofs.«168357_j42863773614715_1_alg».proof.Proof.Gen.KernelIdeal.Points
import proofs.«168357_j42863773614715_1_alg».proof.Proof.Gen.KernelIdeal.Frame
import proofs.«168357_j42863773614715_1_alg».proof.Proof.Gen.ReferenceIdeal
import proofs.«168357_j42863773614715_1_alg».proof.Proof.Gen.ReferenceIdeal.Run
import proofs.«168357_j42863773614715_1_alg».proof.Proof.Gen.ReferenceIdeal.Read
import proofs.«168357_j42863773614715_1_alg».proof.Proof.Gen.Pre_finite_inputs
import proofs.«168357_j42863773614715_1_alg».proof.Proof.KernelResults
import proofs.«168357_j42863773614715_1_alg».proof.Proof.RefColumns
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the five results dropped. -/
theorem frame_reference : Cert.frame_ReferenceIdeal := fun m ρ _ =>
  (θ_run Cert.ReferenceIdeal.defs _ _).mono (fun _ h c => ⟨(h c).2.2.2.2.2.1, (h c).2.2.2.2.2.2⟩)
    (Cert.ReferenceIdeal.Value.run (F := Ideal) m ρ)

/-- The ideal pass rewrote no operation. -/
theorem preserves : Cert.preserves_Kernel_KernelIdeal := trivial

/-- From memories that agree on `p` and `g`, both programs end with the same five results: each result of either is
    the same smoothed quotient or lane sum of the arguments. -/
theorem algebraic : Cert.algebraic_KernelIdeal_ReferenceIdeal := by
  intro m ρ m' ρ' _ hagree
  refine ⟨_, _, _, _, _, Cert.KernelIdeal.Results.run m ρ, ?_⟩
  refine (θ_run Cert.ReferenceIdeal.defs _ _).mono (fun _ h c => ?_) (Cert.ReferenceIdeal.Value.run (F := Ideal) m' ρ')
  obtain ⟨h13, h8, h1, h2, h3, ha0, ha1⟩ := h c
  refine ⟨h13.trans ?_, h8.trans ?_, h1.trans ?_, h2.trans ?_, h3.trans ?_, ha0, ha1⟩
  · rw [Cert.ReferenceIdeal.Read.val_main_v13_eq, Cert.ReferenceIdeal.Columns.precision_eq, (hagree c).1, (hagree c).2]
    rfl
  · rw [Cert.ReferenceIdeal.Read.val_main_v8_eq, Cert.ReferenceIdeal.Columns.recall_eq, (hagree c).1, (hagree c).2]
    rfl
  · rw [Cert.ReferenceIdeal.Read.val_main_v1_eq, Cert.ReferenceIdeal.Columns.sum_pg, (hagree c).1, (hagree c).2]
    rfl
  · rw [Cert.ReferenceIdeal.Read.val_main_v2_eq, Cert.ReferenceIdeal.Columns.sum_g, (hagree c).2]
    rfl
  · rw [Cert.ReferenceIdeal.Read.val_main_v3_eq, Cert.ReferenceIdeal.Columns.sum_p, (hagree c).1]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
